-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 94
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S1700000x1, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S100000x128, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S100000, .f32⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S100000, .f32⟩
  | 92 => ⟨S_, .f32⟩
  | 93 => ⟨S100000, .f32⟩
  | 94 => ⟨S100000, .i1⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S1700000x1, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x128, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_v81 : Ref sig .tc := ⟨.hbm, 121, rfl⟩
abbrev main_v82 : Ref sig .tc := ⟨.hbm, 122, rfl⟩
abbrev main_c_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  What both programs compute, written once: a two-layer graph convolution with symmetric normalisation.
  From the edge list `ei` (row 0 the sources, row 1 the destinations) and the edge weights `ew`, with one self loop of
  weight 1 appended per node: `deg v` is the sum of the weights of the edges into `v`, `dinv v = deg v ^ (-1/2)` where
  `deg v > 0` and `0` elsewhere, and edge `e` carries `norm e = dinv (src e) · w e · dinv (dst e)`. A layer maps node
  features `h` to `agg (h · W) + b`, where `(agg y) v = Σ_{e : dst e = v} norm e · y (src e)`; the first layer is followed by
  `max · 0`. The gathers and the scatter-additions are the host's own operations and are kept opaque here (both programs apply
  the same ones to the same operands); only the dense pieces — the matrix product, the bias row, the maximum — are
  spelt index by index, because there the two programs differ in form (blocks of 5000 rows against one whole product).
-/
import proofs.«171158_j53532472377745_1_alg».proof.Proof.Gen.ReferenceIdeal
import Idealize.ShloMosaic.Lib.ValueIdx

noncomputable section

namespace Cert.Gcn

open Idealize.ShloMosaic Idealize.ShloMosaic.ValueIdx Cert.ReferenceIdeal Cert.ReferenceIdeal.Gen
open scoped BigOperators

/-- A float array of shape `S` over the extended reals. -/
abbrev FArr (S : Shape) := FVec Ideal S .f32
/-- A 32-bit integer array of shape `S`. -/
abbrev IArr (S : Shape) := IVec S 32

/-- The sources of all 1 700 000 edges: row 0 of the edge list, then the self loops `0 … 99999`. -/
def srcOf (ei : IArr S2x1600000) : IArr S1700000 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The destinations of all edges: row 1 of the edge list, then the self loops. -/
def dstOf (ei : IArr S2x1600000) : IArr S1700000 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The weights of all edges: the given ones, then 1 for every self loop. -/
def wOf (ew : FArr S1600000) : FArr S1700000 :=
  concatenate S1700000 0 [⟨S1600000, ew⟩, ⟨S100000, broadcastInDim S100000 ![] bcast_S_S100000 (constant (F := Ideal) S_ .f32 0x3F800000#32)⟩] concatenates_S1600000_S100000_S1700000_d0

/-- The weighted in-degree: the weights added up per destination. -/
def degOf (dst : IArr S1700000) (w : FArr S1700000) : FArr S100000 :=
  Host.scatterAdd (F := Ideal) scatter_S100000_S1700000x1_S1700000_n_0_0_1 (broadcastInDim S100000 ![] bcast_S_S100000 (constant (F := Ideal) S_ .f32 0x00000000#32))
    (broadcastInDim S1700000x1 ![0] bcast_S1700000_S1700000x1_0 dst) w

/-- `deg ^ (-1/2)` where the degree is positive, `0` elsewhere. -/
def dinvOf (deg : FArr S100000) : FArr S100000 :=
  select (cmpf .ogt deg (broadcastInDim S100000 ![] bcast_S_S100000 (constant (F := Ideal) S_ .f32 0x00000000#32)))
    (Host.rsqrt (F := Ideal) (select (cmpf .ogt deg (broadcastInDim S100000 ![] bcast_S_S100000 (constant (F := Ideal) S_ .f32 0x00000000#32))) deg
      (broadcastInDim S100000 ![] bcast_S_S100000 (constant (F := Ideal) S_ .f32 0x3F800000#32))))
    (broadcastInDim S100000 ![] bcast_S_S100000 (constant (F := Ideal) S_ .f32 0x00000000#32))

/-- Node numbers as gather indices: a negative number counts from the end, and the column of start indices is formed. -/
def wrap (s : IArr S1700000) : IArr S1700000x1 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The coefficient of every edge: `dinv (src e) · w e · dinv (dst e)`. -/
def normOf (dinv : FArr S100000) (src dst : IArr S1700000) (w : FArr S1700000) : FArr S1700000 :=
  mulf (mulf (Host.gather gather_S100000_S1700000x1_S1700000_n_0_n_n_0_1_1 dinv (wrap src)) w)
    (Host.gather gather_S100000_S1700000x1_S1700000_n_0_n_n_0_1_1 dinv (wrap dst))

/-- Message passing: every edge sends `norm e · y (src e)`, and a node adds up what arrives. -/
def aggOf (nrm : FArr S1700000) (src dst : IArr S1700000) (y : FArr S100000x128) : FArr S100000x128 :=
  Host.scatterAdd (F := Ideal) scatter_S100000x128_S1700000x1_S1700000x128_1_0_0_1 (broadcastInDim S100000x128 ![] bcast_S_S100000x128 (constant (F := Ideal) S_ .f32 0x00000000#32))
    (broadcastInDim S1700000x1 ![0] bcast_S1700000_S1700000x1_0 dst)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 y (wrap src)))

/-- The dense projection `h · W`: entry `(r, j)` is `Σ_k h (r, k) · W (k, j)`. -/
def mmS (h : FArr S100000x128) (W : FArr S128x128) : FArr S100000x128 :=
  fun i => ∑ k : Fin 128, h (ix2 (⟨(i 0).val, (i 0).isLt⟩ : Fin 100000) k) * W (ix2 k (⟨(i 1).val, (i 1).isLt⟩ : Fin 128))

/-- The product's entry at an index whose coordinates are `r` and `q`. -/
theorem mmS_at (h : FArr S100000x128) (W : FArr S128x128) (i : S100000x128.Idx) (r : Fin 100000) (q : Fin 128)
    (h0 : (i 0).val = r.val) (h1 : (i 1).val = q.val) :
    mmS h W i = ∑ k : Fin 128, h (ix2 r k) * W (ix2 k q) := by
  have e0 : (⟨(i 0).val, (i 0).isLt⟩ : Fin 100000) = r := Fin.ext h0
  have e1 : (⟨(i 1).val, (i 1).isLt⟩ : Fin 128) = q := Fin.ext h1
  unfold mmS
  rw [e0, e1]

/-- The bias added to every row: entry `(r, j)` gets `b j`. -/
def biasS (a : FArr S100000x128) (b : FArr S128) : FArr S100000x128 :=
  fun i => a i + b (ix1 (⟨(i 1).val, (i 1).isLt⟩ : Fin 128))

/-- `max · 0`, entry by entry. -/
def reluS (a : FArr S100000x128) : FArr S100000x128 :=
  fun i => max (a i) (Ideal.ofBits .f32 0x00000000#32)

/-- The edge coefficients from the inputs. -/
def normIn (ei : IArr S2x1600000) (ew : FArr S1600000) : FArr S1700000 :=
  normOf (dinvOf (degOf (dstOf ei) (wOf ew))) (srcOf ei) (dstOf ei) (wOf ew)

/-- One layer without its activation. -/
def layer (ei : IArr S2x1600000) (ew : FArr S1600000) (h : FArr S100000x128) (W : FArr S128x128) (b : FArr S128) : FArr S100000x128 :=
  biasS (aggOf (normIn ei ew) (srcOf ei) (dstOf ei) (mmS h W)) b

/-- The network: two layers, `max · 0` between them. -/
def gcn (x : FArr S100000x128) (ei : IArr S2x1600000) (ew : FArr S1600000) (W1 : FArr S128x128) (b1 : FArr S128)
    (W2 : FArr S128x128) (b2 : FArr S128) : FArr S100000x128 :=
  layer ei ew (reluS (layer ei ew x W1 b1)) W2 b2

end Cert.Gcn

end
-- ==== Proof.ProjectionBlock.lean ====
/-
  One block of a dense projection at an entry. The body multiplies a block of 5000 feature rows by the whole 128 × 128
  weight matrix (both rounded to bf16 on the way in, which over the extended reals is the identity) into a zero
  accumulator: entry `(p, q)` of the result is `Σ_k x (p, k) · w (k, q)`.
-/
import proofs.«171158_j53532472377745_1_alg».proof.Proof.Gen.KernelIdeal.Frame
import proofs.«171158_j53532472377745_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

theorem hz : (![0, 0] : Fin 2 → Nat) = fun _ => 0 := funext fun a => by fin_cases a <;> rfl

/-! ## One block's product at an entry -/

/-- The left operand's index of the contraction: row from the output, column the contracted coordinate. -/
theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contracted coordinate, column from the output. -/
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first projection's body at entry `(p, q)`: the contraction over the 128 shared coordinates (the roundings to bf16 are
    the identity on extended reals, the accumulator is zero). -/
theorem matmul_block (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  refine (Ideal.matmul_constant_zero_apply dot_S5000x128_S128x128_S5000x128_1_0_0_1_n_n none (truncf .bf16 x bitsLt_bf16_f32) (truncf .bf16 w bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

/-- The second projection's body is the first's: its one extra operation is a cast of the block to its own shape. -/
theorem matmul_block2 (x : Vec Ideal S5000x128 .f32) (w : Vec Ideal S128x128 .f32) (p : Fin 5000) (q : Fin 128) :
    k2_pay1 x w (ix2 p q) = ∑ k : Fin 128, x (ix2 p k) * w (ix2 k q) := by
  have e : k2_pay1 x w = k0_pay1 x w := by
    unfold k2_pay1 k0_pay1
    rw [shapeCast_self]
  rw [e]
  exact matmul_block x w p q

end Cert.KernelIdeal.Dense

end
-- ==== Proof.Projection1.lean ====
/-
  The first dense projection as a whole array. The pipeline runs over a grid of 20 points; at point `t` the body reads rows
  `5000 t … 5000 t + 4999` of the features and the whole weight matrix, and its product block is written back to the same
  rows of the output. The blocks tile the 100 000 rows, so the output array ends at the whole product
  `Σ_k X (r, k) · W (k, q)` of the two arrays the region found.
-/
import proofs.«171158_j53532472377745_1_alg».proof.Proof.ProjectionBlock

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

/-! ## The projection of layer 1: the pipeline over `main_arg0` and `main_arg3` writing `main_v35` -/

section Region0

variable (V : (c : Dev nD) → (b : Ref sig .tc) → Buf (Elt Ideal) ((c : Thread nD τ).loc b))

/-- The block indices over the grid of 20 points: point `t` reads rows `5000 t … 5000 t + 4999` of the features and writes
    the same rows of the product; the weight matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Row `p` of the feature block at point `t` is row `5000 t + p` of the feature array. -/
theorem x_blk0 (c : Dev nD) (t : Fin cfg0.N) (p : Fin 5000) (k : Fin 128) (h : t.val * 5000 + p.val < 100000) :
    (iblk0 V c 0 t : Vec Ideal S5000x128 .f32) (ix2 p k)
      = (V c main_arg0 : S100000x128.Idx → Elt Ideal .f32) (ix2 (⟨t.val * 5000 + p.val, h⟩ : Fin 100000) k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block at every point is the whole weight matrix. -/
theorem w_blk0 (c : Dev nD) (t : Fin cfg0.N) (k q : Fin 128) :
    (iblk0 V c 1 t : Vec Ideal S128x128 .f32) (ix2 k q) = (V c main_arg3 : S128x128.Idx → Elt Ideal .f32) (ix2 k q) := by
  obtain ⟨-, -, e2, e3, -⟩ := idx0 t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point `t` writes back is its block of the whole product. -/
theorem flushed0 (c : Dev nD) (t : Fin cfg0.N) :
    (dat0 V c).flushed 2 t = ((cfg0.win 2).blk t).view.read (Elt Ideal) (Cert.Gcn.mmS (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5, ht⟩ := idx0 t
  funext j
  obtain ⟨p, q, rfl⟩ : ∃ (p : Fin 5000) (q : Fin 128), j = ix2 p q := ⟨j 0, j 1, eq_ix2 j⟩
  rw [View.read_apply]
  have hp : p.val < 5000 := p.isLt
  have hrow : t.val * 5000 + p.val < 100000 := by omega
  refine (matmul_block _ _ p q).trans ?_
  rw [Cert.Gcn.mmS_at _ _ _ (⟨t.val * 5000 + p.val, hrow⟩ : Fin 100000) q
    (by show win0_2.index t (0 : Fin 2) * 5000 + 1 * p.val = t.val * 5000 + p.val; rw [e4]; omega)
    (by show win0_2.index t (1 : Fin 2) * 128 + 1 * q.val = q.val; rw [e5]; omega)]
  refine Finset.sum_congr rfl fun k _ => ?_
  rw [x_blk0 V c t p k hrow, w_blk0 V c t k q]

/-- An index of the product array lies in point `t`'s block iff each coordinate lies in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- The twenty blocks of 5000 rows cover the array: row `r` is in the block of point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, e4, e5, -⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 128 ≤ (i 1).val ∧ (i 1).val < win0_2.index t (1 : Fin 2) * 128 + 128; rw [e5]; omega

/-- After the region the output array holds the whole product of the two arrays the region found. -/
theorem product0 (c : Dev nD) : (dat0 V c).arrAt 2 cfg0.N = Cert.Gcn.mmS (V c main_arg0) (V c main_arg3) :=
  (dat0 V c).arrAt_eq_of_cover 2 (Cert.Gcn.mmS (V c main_arg0) (V c main_arg3)) (fun t _ => flushed0 V c t) cover0

end Region0

end Cert.KernelIdeal.Dense

end
-- ==== Proof.Projection2.lean ====
/-
  The second dense projection as a whole array. The pipeline runs over a grid of 20 points; at point `t` the body reads rows
  `5000 t … 5000 t + 4999` of the features and the whole weight matrix, and its product block is written back to the same
  rows of the output. The blocks tile the 100 000 rows, so the output array ends at the whole product
  `Σ_k X (r, k) · W (k, q)` of the two arrays the region found.
-/
import proofs.«171158_j53532472377745_1_alg».proof.Proof.ProjectionBlock

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

/-! ## The projection of layer 2: the pipeline over `main_v50` and `main_arg5` writing `main_v51` -/

section Region2

variable (V : (c : Dev nD) → (b : Ref sig .tc) → Buf (Elt Ideal) ((c : Thread nD τ).loc b))

/-- The block indices over the grid of 20 points: point `t` reads rows `5000 t … 5000 t + 4999` of the features and writes
    the same rows of the product; the weight matrix is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- Row `p` of the feature block at point `t` is row `5000 t + p` of the feature array. -/
theorem x_blk2 (c : Dev nD) (t : Fin cfg2.N) (p : Fin 5000) (k : Fin 128) (h : t.val * 5000 + p.val < 100000) :
    (iblk2 V c 0 t : Vec Ideal S5000x128 .f32) (ix2 p k)
      = (V c main_v50 : S100000x128.Idx → Elt Ideal .f32) (ix2 (⟨t.val * 5000 + p.val, h⟩ : Fin 100000) k) := by
  obtain ⟨e0, e1, -⟩ := idx2 t
  unfold iblk2
  rw [View.read_apply]
  show V c main_v50 _ = V c main_v50 _
  refine congrArg (V c main_v50) ?_
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight block at every point is the whole weight matrix. -/
theorem w_blk2 (c : Dev nD) (t : Fin cfg2.N) (k q : Fin 128) :
    (iblk2 V c 1 t : Vec Ideal S128x128 .f32) (ix2 k q) = (V c main_arg5 : S128x128.Idx → Elt Ideal .f32) (ix2 k q) := by
  obtain ⟨-, -, e2, e3, -⟩ := idx2 t
  unfold iblk2
  rw [View.read_apply]
  show V c main_arg5 _ = V c main_arg5 _
  refine congrArg (V c main_arg5) ?_
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point `t` writes back is its block of the whole product. -/
theorem flushed2 (c : Dev nD) (t : Fin cfg2.N) :
    (dat2 V c).flushed 2 t = ((cfg2.win 2).blk t).view.read (Elt Ideal) (Cert.Gcn.mmS (V c main_v50) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5, ht⟩ := idx2 t
  funext j
  obtain ⟨p, q, rfl⟩ : ∃ (p : Fin 5000) (q : Fin 128), j = ix2 p q := ⟨j 0, j 1, eq_ix2 j⟩
  rw [View.read_apply]
  have hp : p.val < 5000 := p.isLt
  have hrow : t.val * 5000 + p.val < 100000 := by omega
  refine (matmul_block2 _ _ p q).trans ?_
  rw [Cert.Gcn.mmS_at _ _ _ (⟨t.val * 5000 + p.val, hrow⟩ : Fin 100000) q
    (by show win2_2.index t (0 : Fin 2) * 5000 + 1 * p.val = t.val * 5000 + p.val; rw [e4]; omega)
    (by show win2_2.index t (1 : Fin 2) * 128 + 1 * q.val = q.val; rw [e5]; omega)]
  refine Finset.sum_congr rfl fun k _ => ?_
  rw [x_blk2 V c t p k hrow, w_blk2 V c t k q]

/-- An index of the product array lies in point `t`'s block iff each coordinate lies in the block's range. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The twenty blocks of 5000 rows cover the array: row `r` is in the block of point `r / 5000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, htv⟩ : ∃ t : Fin cfg2.N, t.val = (i 0).val / 5000 := ⟨⟨(i 0).val / 5000, by rw [hN]; omega⟩, rfl⟩
  obtain ⟨-, -, -, -, e4, e5, -⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, htv]; omega
  | ⟨1, _⟩ => show win2_2.index t (1 : Fin 2) * 128 ≤ (i 1).val ∧ (i 1).val < win2_2.index t (1 : Fin 2) * 128 + 128; rw [e5]; omega

/-- After the region the output array holds the whole product of the two arrays the region found. -/
theorem product2 (c : Dev nD) : (dat2 V c).arrAt 2 cfg2.N = Cert.Gcn.mmS (V c main_v50) (V c main_arg5) :=
  (dat2 V c).arrAt_eq_of_cover 2 (Cert.Gcn.mmS (V c main_v50) (V c main_arg5)) (fun t _ => flushed2 V c t) cover2

end Region2

end Cert.KernelIdeal.Dense

end
-- ==== Proof.BiasBlock.lean ====
/-
  One block of the two bias kernels at an entry, and what they compute as whole arrays. The body adds the one bias row to
  every row of a block of 5000 rows — entry `(p, q)` gets `b (0, q)` — and the first layer's kernel then takes the maximum with 0.
  The bias reaches the kernel as a 1 × 128 array, the host's reshape of the 128 bias values: entry `(0, q)` of that array is `b q`.
-/
import proofs.«171158_j53532472377745_1_alg».proof.Proof.Gen.KernelIdeal.Frame
import proofs.«171158_j53532472377745_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.Gcn

open Cert.ReferenceIdeal

/-- The bias row added to every row of `a`: entry `(r, q)` gets `brow (0, q)`. -/
def biasRow (a : FArr S100000x128) (brow : FArr S1x128) : FArr S100000x128 :=
  fun i => a i + brow (ix2 (0 : Fin 1) (⟨(i 1).val, (i 1).isLt⟩ : Fin 128))

/-- `biasRow` at an index whose coordinates are `r` and `q`. -/
theorem biasRow_at (a : FArr S100000x128) (brow : FArr S1x128) (i : S100000x128.Idx) (r : Fin 100000) (q : Fin 128)
    (h0 : (i 0).val = r.val) (h1 : (i 1).val = q.val) :
    biasRow a brow i = a (ix2 r q) + brow (ix2 (0 : Fin 1) q) := by
  have ei : i = ix2 r q := by
    funext d
    apply Fin.ext
    match d with
    | ⟨0, _⟩ => exact h0
    | ⟨1, _⟩ => exact h1
  have e1 : (⟨(i 1).val, (i 1).isLt⟩ : Fin 128) = q := Fin.ext h1
  unfold biasRow
  rw [e1, ei]

/-- `max · 0` after the bias row, at an index whose coordinates are `r` and `q`. -/
theorem relu_biasRow_at (a : FArr S100000x128) (brow : FArr S1x128) (i : S100000x128.Idx) (r : Fin 100000) (q : Fin 128)
    (h0 : (i 0).val = r.val) (h1 : (i 1).val = q.val) :
    reluS (biasRow a brow) i = max (a (ix2 r q) + brow (ix2 (0 : Fin 1) q)) (Ideal.ofBits .f32 0x00000000#32) := by
  unfold reluS
  rw [biasRow_at a brow i r q h0 h1]

/-- The 128 bias values reshaped to one row of 128: adding that row is adding `b q` in column `q`. -/
theorem biasRow_reshape (a : FArr S100000x128) (b : FArr S128) (h : S128.ShapeCasts S1x128) :
    biasRow a (shapeCast S1x128 b h) = biasS a b := by
  funext i
  unfold biasRow biasS
  refine congrArg (a i + ·) ?_
  refine shapeCast_apply b h _ _ ?_
  rw [Shape.rowMajor_val_one, Shape.rowMajor_val_two]
  show (i 1).val = 0 * 128 + (i 1).val
  omega

end Cert.Gcn

namespace Cert.KernelIdeal.Dense

open Cert.KernelIdeal Cert.KernelIdeal.Gen

theorem hz2 : (![0, 0] : Fin 2 → Nat) = fun _ => 0 := funext fun a => by fin_cases a <;> rfl

/-- The one bias row broadcast over a block of 5000 rows, read at `(p, q)`. -/
theorem bias_bcast (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The first layer's bias kernel at entry `(p, q)` of a block: the bias added, then the maximum with 0. -/
theorem bias_relu_block (x : Vec Ideal S5000x128 .f32) (b : Vec Ideal S1x128 .f32) (p : Fin 5000) (q : Fin 128) :
    k1_pay1 x b (ix2 p q) = max (x (ix2 p q) + b (ix2 (0 : Fin 1) q)) (Ideal.ofBits .f32 0x00000000#32) := by
  unfold k1_pay1
  rw [shapeCast_self, shapeCast_self, shapeCast_self]
  show max (x (ix2 p q) + broadcastTo S5000x128 b broadcasts_S1x128_S5000x128 (ix2 p q)) _ = _
  rw [bias_bcast]
  rfl

/-- The second layer's bias kernel at entry `(p, q)` of a block: the bias added. -/
theorem bias_block (x : Vec Ideal S5000x128 .f32) (b : Vec Ideal S1x128 .f32) (p : Fin 5000) (q : Fin 128) :
    k3_pay1 x b (ix2 p q) = x (ix2 p q) + b (ix2 (0 : Fin 1) q) := by
  unfold k3_pay1
  rw [shapeCast_self, shapeCast_self, shapeCast_self]
  show x (ix2 p q) + broadcastTo S5000x128 b broadcasts_S1x128_S5000x128 (ix2 p q) = _
  rw [bias_bcast]

end Cert.KernelIdeal.Dense

end
-- ==== Proof.Bias1.lean ====
/-
  The first layer's bias kernel as a whole array. Over a grid of 20 points, point `t` reads rows `5000 t … 5000 t + 4999` of the
  aggregated features and the one bias row, and writes the same rows of the output: entry `(r, q)` ends at
  `max (a (r, q) + b (0, q)) 0`. The blocks tile the 100 000 rows.
-/
import proofs.«171158_j53532472377745_1_alg».proof.Proof.BiasBlock

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

section Region1

variable (V : (c : Dev nD) → (b : Ref sig .tc) → Buf (Elt Ideal) ((c : Thread nD τ).loc b))

/-- The block indices over the grid: rows `5000 t …` in and out, the bias row one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- Row `p` of the input block at point `t` is row `5000 t + p` of the aggregated features. -/
theorem a_blk1 (c : Dev nD) (t : Fin cfg1.N) (p : Fin 5000) (q : Fin 128) (h : t.val * 5000 + p.val < 100000) :
    (iblk1 V c 0 t : Vec Ideal S5000x128 .f32) (ix2 p q)
      = (V c main_v48 : S100000x128.Idx → Elt Ideal .f32) (ix2 (⟨t.val * 5000 + p.val, h⟩ : Fin 100000) q) := by
  obtain ⟨e0, e1, -⟩ := idx1 t
  unfold iblk1
  rw [View.read_apply]
  show V c main_v48 _ = V c main_v48 _
  refine congrArg (V c main_v48) ?_
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The bias block at every point is the whole bias row. -/
theorem b_blk1 (c : Dev nD) (t : Fin cfg1.N) (q : Fin 128) :
    (iblk1 V c 1 t : Vec Ideal S1x128 .f32) (ix2 (0 : Fin 1) q) = (V c main_v49 : S1x128.Idx → Elt Ideal .f32) (ix2 (0 : Fin 1) q) := by
  obtain ⟨-, -, e2, e3, -⟩ := idx1 t
  unfold iblk1
  rw [View.read_apply]
  show V c main_v49 _ = V c main_v49 _
  refine congrArg (V c main_v49) ?_
  funext a
  apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- What point `t` writes back is its block of the whole result. -/
theorem flushed1 (c : Dev nD) (t : Fin cfg1.N) :
    (dat1 V c).flushed 2 t = ((cfg1.win 2).blk t).view.read (Elt Ideal) (Cert.Gcn.reluS (Cert.Gcn.biasRow (V c main_v48) (V c main_v49))) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S1x128) hz2]
  obtain ⟨-, -, -, -, e4, e5, ht⟩ := idx1 t
  funext j
  obtain ⟨p, q, rfl⟩ : ∃ (p : Fin 5000) (q : Fin 128), j = ix2 p q := ⟨j 0, j 1, eq_ix2 j⟩
  rw [View.read_apply]
  have hp : p.val < 5000 := p.isLt
  have hrow : t.val * 5000 + p.val < 100000 := by omega
  refine (bias_relu_block _ _ p q).trans ?_
  rw [Cert.Gcn.relu_biasRow_at _ _ _ (⟨t.val * 5000 + p.val, hrow⟩ : Fin 100000) q
    (by show win1_2.index t (0 : Fin 2) * 5000 + 1 * p.val = t.val * 5000 + p.val; rw [e4]; omega)
    (by show win1_2.index t (1 : Fin 2) * 128 + 1 * q.val = q.val; rw [e5]; omega)]
  rw [a_blk1 V c t p q hrow, b_blk1 V c t q]
  rfl

/-- An index of the output array lies in point `t`'s block iff each coordinate lies in the block's range. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The twenty blocks cover the array: row `r` is in the block of point `r / 5000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, e4, e5, -⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, htv]; omega
  | ⟨1, _⟩ => show win1_2.index t (1 : Fin 2) * 128 ≤ (i 1).val ∧ (i 1).val < win1_2.index t (1 : Fin 2) * 128 + 128; rw [e5]; omega

/-- After the region the output array holds `max (a + bias row) 0` of the two arrays the region found. -/
theorem activated1 (c : Dev nD) : (dat1 V c).arrAt 2 cfg1.N = Cert.Gcn.reluS (Cert.Gcn.biasRow (V c main_v48) (V c main_v49)) :=
  (dat1 V c).arrAt_eq_of_cover 2 (Cert.Gcn.reluS (Cert.Gcn.biasRow (V c main_v48) (V c main_v49))) (fun t _ => flushed1 V c t) cover1

end Region1

end Cert.KernelIdeal.Dense

end
-- ==== Proof.Bias3.lean ====
/-
  The second layer's bias kernel as a whole array. Over a grid of 20 points, point `t` reads rows `5000 t … 5000 t + 4999` of the
  aggregated features and the one bias row, and writes the same rows of the result: entry `(r, q)` ends at `a (r, q) + b (0, q)`.
  The blocks tile the 100 000 rows.
-/
import proofs.«171158_j53532472377745_1_alg».proof.Proof.BiasBlock

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

section Region3

variable (V : (c : Dev nD) → (b : Ref sig .tc) → Buf (Elt Ideal) ((c : Thread nD τ).loc b))

/-- The block indices over the grid: rows `5000 t …` in and out, the bias row one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 20 :=
  (by decide +kernel : ∀ t : Fin grid3.N, _)

/-- Row `p` of the input block at point `t` is row `5000 t + p` of the aggregated features. -/
theorem a_blk3 (c : Dev nD) (t : Fin cfg3.N) (p : Fin 5000) (q : Fin 128) (h : t.val * 5000 + p.val < 100000) :
    (iblk3 V c 0 t : Vec Ideal S5000x128 .f32) (ix2 p q)
      = (V c main_v64 : S100000x128.Idx → Elt Ideal .f32) (ix2 (⟨t.val * 5000 + p.val, h⟩ : Fin 100000) q) := by
  obtain ⟨e0, e1, -⟩ := idx3 t
  unfold iblk3
  rw [View.read_apply]
  show V c main_v64 _ = V c main_v64 _
  refine congrArg (V c main_v64) ?_
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- The bias block at every point is the whole bias row. -/
theorem b_blk3 (c : Dev nD) (t : Fin cfg3.N) (q : Fin 128) :
    (iblk3 V c 1 t : Vec Ideal S1x128 .f32) (ix2 (0 : Fin 1) q) = (V c main_v65 : S1x128.Idx → Elt Ideal .f32) (ix2 (0 : Fin 1) q) := by
  obtain ⟨-, -, e2, e3, -⟩ := idx3 t
  unfold iblk3
  rw [View.read_apply]
  show V c main_v65 _ = V c main_v65 _
  refine congrArg (V c main_v65) ?_
  funext a
  apply Fin.ext
  match a with
  | ⟨0, _⟩ => show win3_1.index t (0 : Fin 2) * 1 + 1 * 0 = 0; rw [e2]
  | ⟨1, _⟩ => show win3_1.index t (1 : Fin 2) * 128 + 1 * q.val = q.val; rw [e3]; omega

/-- What point `t` writes back is its block of the whole result. -/
theorem flushed3 (c : Dev nD) (t : Fin cfg3.N) :
    (dat3 V c).flushed 2 t = ((cfg3.win 2).blk t).view.read (Elt Ideal) (Cert.Gcn.biasRow (V c main_v64) (V c main_v65)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S1x128) hz2]
  obtain ⟨-, -, -, -, e4, e5, ht⟩ := idx3 t
  funext j
  obtain ⟨p, q, rfl⟩ : ∃ (p : Fin 5000) (q : Fin 128), j = ix2 p q := ⟨j 0, j 1, eq_ix2 j⟩
  rw [View.read_apply]
  have hp : p.val < 5000 := p.isLt
  have hrow : t.val * 5000 + p.val < 100000 := by omega
  refine (bias_block _ _ p q).trans ?_
  rw [Cert.Gcn.biasRow_at _ _ _ (⟨t.val * 5000 + p.val, hrow⟩ : Fin 100000) q
    (by show win3_2.index t (0 : Fin 2) * 5000 + 1 * p.val = t.val * 5000 + p.val; rw [e4]; omega)
    (by show win3_2.index t (1 : Fin 2) * 128 + 1 * q.val = q.val; rw [e5]; omega)]
  rw [a_blk3 V c t p q hrow, b_blk3 V c t q]
  rfl

/-- An index of the result array lies in point `t`'s block iff each coordinate lies in the block's range. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- The twenty blocks cover the array: row `r` is in the block of point `r / 5000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, htv⟩ : ∃ t : Fin cfg3.N, t.val = (i 0).val / 5000 := ⟨⟨(i 0).val / 5000, by rw [hN]; omega⟩, rfl⟩
  obtain ⟨-, -, -, -, e4, e5, -⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, htv]; omega
  | ⟨1, _⟩ => show win3_2.index t (1 : Fin 2) * 128 ≤ (i 1).val ∧ (i 1).val < win3_2.index t (1 : Fin 2) * 128 + 128; rw [e5]; omega

/-- After the region the result array holds the aggregated features plus the bias row. -/
theorem biased3 (c : Dev nD) : (dat3 V c).arrAt 2 cfg3.N = Cert.Gcn.biasRow (V c main_v64) (V c main_v65) :=
  (dat3 V c).arrAt_eq_of_cover 2 (Cert.Gcn.biasRow (V c main_v64) (V c main_v65)) (fun t _ => flushed3 V c t) cover3

end Region3

end Cert.KernelIdeal.Dense

end
-- ==== Proof.EdgeCoefficients.lean ====
/-
  The edge coefficients, read off the kernel program's first five stretches of host operations. Over any contents `W` a stretch
  starts from: the first builds the two edge lists (a row of the edge input followed by the self loops), the edge weights (the
  given ones followed by ones), the weighted in-degree and the test `deg > 0`; the next three form `deg ^ (-1/2)` where the degree
  is positive and `0` elsewhere (two selects around a reciprocal square root); the fifth gathers that value at both ends of every
  edge and multiplies with the weight. A buffer a stretch does not write keeps its contents. Composed from the launch memory
  this is `Cert.Gcn.normIn` of the two edge arguments.
-/
import proofs.«171158_j53532472377745_1_alg».proof.Proof.Gen.KernelIdeal.Frame
import proofs.«171158_j53532472377745_1_alg».proof.Proof.Spec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Edges

open Cert.KernelIdeal Cert.KernelIdeal.Gen

section Stretches

variable (W : Valuation τ sig (Elt Ideal))

/-! ## The first stretch: edge lists, weights, degree -/

set_option maxHeartbeats 1000000 in
theorem s0_src : StableHlo.after hostOps0 W (Proc.devRef .tc main_v3) = Cert.Gcn.srcOf (W (Proc.devRef .tc main_arg1)) := by
  simp only [hostOps0]
  after_results
  rfl
set_option maxHeartbeats 1000000 in
theorem s0_dst : StableHlo.after hostOps0 W (Proc.devRef .tc main_v6) = Cert.Gcn.dstOf (W (Proc.devRef .tc main_arg1)) := by
  simp only [hostOps0]
  after_results
  rfl
set_option maxHeartbeats 1000000 in
theorem s0_w : StableHlo.after hostOps0 W (Proc.devRef .tc main_v8) = Cert.Gcn.wOf (W (Proc.devRef .tc main_arg2)) := by
  simp only [hostOps0]
  after_results
  rfl
set_option maxHeartbeats 2000000 in
theorem s0_deg : StableHlo.after hostOps0 W (Proc.devRef .tc main_v11)
    = Cert.Gcn.degOf (Cert.Gcn.dstOf (W (Proc.devRef .tc main_arg1))) (Cert.Gcn.wOf (W (Proc.devRef .tc main_arg2))) := by
  simp only [hostOps0]
  after_results
  rfl
set_option maxHeartbeats 2000000 in
theorem s0_pos : StableHlo.after hostOps0 W (Proc.devRef .tc main_v13)
    = cmpf .ogt (Cert.Gcn.degOf (Cert.Gcn.dstOf (W (Proc.devRef .tc main_arg1))) (Cert.Gcn.wOf (W (Proc.devRef .tc main_arg2))))
        (broadcastInDim S100000 ![] bcast_S_S100000 (constant (F := Ideal) S_ .f32 0x00000000#32)) := by
  simp only [hostOps0]
  after_results
  rfl
theorem s0_one : StableHlo.after hostOps0 W (Proc.devRef .tc main_cst_2) = constant (F := Ideal) S_ .f32 0x3F800000#32 := by
  simp only [hostOps0]
  after_results_simp

/-! ## The next three: the inverse square root of the positive degrees -/

theorem s1_sel : StableHlo.after hostOps0_1 W (Proc.devRef .tc main_v14)
    = select (W (Proc.devRef .tc main_v13)) (W (Proc.devRef .tc main_v11))
        (broadcastInDim S100000 ![] bcast_S_S100000 (W (Proc.devRef .tc main_cst_2))) := by
  simp only [hostOps0_1]
  after_results_simp
  rfl
theorem s1_v3 : StableHlo.after hostOps0_1 W (Proc.devRef .tc main_v3) = W (Proc.devRef .tc main_v3) := by
  simp only [hostOps0_1]
  after_results_simp
theorem s1_v6 : StableHlo.after hostOps0_1 W (Proc.devRef .tc main_v6) = W (Proc.devRef .tc main_v6) := by
  simp only [hostOps0_1]
  after_results_simp
theorem s1_v8 : StableHlo.after hostOps0_1 W (Proc.devRef .tc main_v8) = W (Proc.devRef .tc main_v8) := by
  simp only [hostOps0_1]
  after_results_simp
theorem s1_v11 : StableHlo.after hostOps0_1 W (Proc.devRef .tc main_v11) = W (Proc.devRef .tc main_v11) := by
  simp only [hostOps0_1]
  after_results_simp

theorem s2_rsqrt : StableHlo.after hostOps0_2 W (Proc.devRef .tc main_v15)
    = @Host.rsqrt Ideal _ S100000 .f32 (W (Proc.devRef .tc main_v14)) := by
  simp only [hostOps0_2]
  after_results_simp
theorem s2_pos : StableHlo.after hostOps0_2 W (Proc.devRef .tc main_v17)
    = cmpf .ogt (W (Proc.devRef .tc main_v11)) (broadcastInDim S100000 ![] bcast_S_S100000 (constant (F := Ideal) S_ .f32 0x00000000#32)) := by
  simp only [hostOps0_2]
  after_results_simp
theorem s2_zero : StableHlo.after hostOps0_2 W (Proc.devRef .tc main_cst_4) = constant (F := Ideal) S_ .f32 0x00000000#32 := by
  simp only [hostOps0_2]
  after_results_simp
theorem s2_v3 : StableHlo.after hostOps0_2 W (Proc.devRef .tc main_v3) = W (Proc.devRef .tc main_v3) := by
  simp only [hostOps0_2]
  after_results_simp
theorem s2_v6 : StableHlo.after hostOps0_2 W (Proc.devRef .tc main_v6) = W (Proc.devRef .tc main_v6) := by
  simp only [hostOps0_2]
  after_results_simp
theorem s2_v8 : StableHlo.after hostOps0_2 W (Proc.devRef .tc main_v8) = W (Proc.devRef .tc main_v8) := by
  simp only [hostOps0_2]
  after_results_simp

theorem s3_sel : StableHlo.after hostOps0_3 W (Proc.devRef .tc main_v18)
    = select (W (Proc.devRef .tc main_v17)) (W (Proc.devRef .tc main_v15))
        (broadcastInDim S100000 ![] bcast_S_S100000 (W (Proc.devRef .tc main_cst_4))) := by
  simp only [hostOps0_3]
  after_results_simp
  rfl
theorem s3_v3 : StableHlo.after hostOps0_3 W (Proc.devRef .tc main_v3) = W (Proc.devRef .tc main_v3) := by
  simp only [hostOps0_3]
  after_results_simp
theorem s3_v6 : StableHlo.after hostOps0_3 W (Proc.devRef .tc main_v6) = W (Proc.devRef .tc main_v6) := by
  simp only [hostOps0_3]
  after_results_simp
theorem s3_v8 : StableHlo.after hostOps0_3 W (Proc.devRef .tc main_v8) = W (Proc.devRef .tc main_v8) := by
  simp only [hostOps0_3]
  after_results_simp

/-! ## The fifth: the coefficient of every edge -/

theorem s4_norm : StableHlo.after hostOps0_4 W (Proc.devRef .tc main_v34)
    = Cert.Gcn.normOf (W (Proc.devRef .tc main_v18)) (W (Proc.devRef .tc main_v3)) (W (Proc.devRef .tc main_v6)) (W (Proc.devRef .tc main_v8)) := by
  simp only [hostOps0_4]
  after_results_simp
  rfl

end Stretches

/-! ## From the launch memory -/

variable (m : (ℓ : Loc nD τ sig) → Buf (Elt Ideal) ℓ) (ρ : Dev nD → PrngReg) (c : Dev nD)

/-- Before the first region the coefficient buffer holds the coefficients of the two edge arguments. -/
theorem entry_norm : W5 m ρ c (Proc.devRef .tc main_v34)
    = Cert.Gcn.normIn (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) _ = _
  rw [s4_norm, s3_sel, s3_v3, s3_v6, s3_v8, s2_pos, s2_rsqrt, s2_zero, s2_v3, s2_v6, s2_v8, s1_sel, s1_v3, s1_v6, s1_v8, s1_v11,
    s0_pos, s0_deg, s0_one, s0_src, s0_dst, s0_w]
  rfl

end Cert.KernelIdeal.Edges

end
-- ==== Proof.KernelValue.lean ====
/-
  The idealized kernel's result array as one function of its seven arguments. The program is four dense regions among
  stretches of host operations; the buffer contents at each boundary are a fold from the launch memory. Walking that fold:
  the first stretches build the edge lists and the edge coefficients from the edge inputs; the first projection leaves
  `x · W1`; the host aggregates it along the edges; the bias kernel leaves `max (· + b1) 0`; the second projection, the same
  aggregation and the second bias kernel follow. Every buffer a later step reads and no step in between writes is carried
  unchanged. The composite is `Cert.Gcn.gcn` of the arguments.
-/
import proofs.«171158_j53532472377745_1_alg».proof.Proof.Projection1
import proofs.«171158_j53532472377745_1_alg».proof.Proof.Projection2
import proofs.«171158_j53532472377745_1_alg».proof.Proof.Bias1
import proofs.«171158_j53532472377745_1_alg».proof.Proof.Bias3
import proofs.«171158_j53532472377745_1_alg».proof.Proof.EdgeCoefficients
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open scoped BigOperators

namespace Cert.KernelIdeal.Whole

open Cert.KernelIdeal Cert.KernelIdeal.Gen Cert.KernelIdeal.Dense Cert.KernelIdeal.Edges

variable (m : (ℓ : Loc nD τ sig) → Buf (Elt Ideal) ℓ) (ρ : Dev nD → PrngReg) (c : Dev nD)

/-! ## What a host stretch leaves, over any contents it starts from -/

section Stretches

variable (W : Valuation τ sig (Elt Ideal))

/-- The stretch after the first projection aggregates it along the edges. -/
theorem stretch1_agg : StableHlo.after hostOps1 W (Proc.devRef .tc main_v48)
    = Cert.Gcn.aggOf (W (Proc.devRef .tc main_v34)) (W (Proc.devRef .tc main_v3)) (W (Proc.devRef .tc main_v6)) (W (Proc.devRef .tc main_v35)) := by
  simp only [hostOps1]
  after_results_simp
  rfl
/-- and reshapes the first bias to one row. -/
theorem stretch1_bias : StableHlo.after hostOps1 W (Proc.devRef .tc main_v49)
    = shapeCast S1x128 (W (Proc.devRef .tc main_arg4)) shapeCasts_S128_S1x128 := by
  simp only [hostOps1]
  after_results_simp
  rfl
theorem stretch1_v34 : StableHlo.after hostOps1 W (Proc.devRef .tc main_v34) = W (Proc.devRef .tc main_v34) := by
  simp only [hostOps1]
  after_results_simp
theorem stretch1_v3 : StableHlo.after hostOps1 W (Proc.devRef .tc main_v3) = W (Proc.devRef .tc main_v3) := by
  simp only [hostOps1]
  after_results_simp
theorem stretch1_v6 : StableHlo.after hostOps1 W (Proc.devRef .tc main_v6) = W (Proc.devRef .tc main_v6) := by
  simp only [hostOps1]
  after_results_simp
theorem stretch1_arg5 : StableHlo.after hostOps1 W (Proc.devRef .tc main_arg5) = W (Proc.devRef .tc main_arg5) := by
  simp only [hostOps1]
  after_results_simp
theorem stretch1_arg6 : StableHlo.after hostOps1 W (Proc.devRef .tc main_arg6) = W (Proc.devRef .tc main_arg6) := by
  simp only [hostOps1]
  after_results_simp

/-- The stretch after the second projection aggregates it the same way. -/
theorem stretch3_agg : StableHlo.after hostOps3 W (Proc.devRef .tc main_v64)
    = Cert.Gcn.aggOf (W (Proc.devRef .tc main_v34)) (W (Proc.devRef .tc main_v3)) (W (Proc.devRef .tc main_v6)) (W (Proc.devRef .tc main_v51)) := by
  simp only [hostOps3]
  after_results_simp
  rfl
/-- and reshapes the second bias to one row. -/
theorem stretch3_bias : StableHlo.after hostOps3 W (Proc.devRef .tc main_v65)
    = shapeCast S1x128 (W (Proc.devRef .tc main_arg6)) shapeCasts_S128_S1x128 := by
  simp only [hostOps3]
  after_results_simp
  rfl

end Stretches

/-! ## Before the first region: the edge lists and the arguments (the edge coefficients are `Edges.entry_norm`) -/

theorem entry_src : W5 m ρ c (Proc.devRef .tc main_v3) = Cert.Gcn.srcOf (m ((c : Thread nD τ).loc main_arg1)) := by
  simp only [W5, W4, W3, W2, W1, hostOps0_4, hostOps0_3, hostOps0_2, hostOps0_1, hostOps0]
  after_results_simp
  rfl
theorem entry_dst : W5 m ρ c (Proc.devRef .tc main_v6) = Cert.Gcn.dstOf (m ((c : Thread nD τ).loc main_arg1)) := by
  simp only [W5, W4, W3, W2, W1, hostOps0_4, hostOps0_3, hostOps0_2, hostOps0_1, hostOps0]
  after_results_simp
  rfl
theorem entry_arg0 : W5 m ρ c (Proc.devRef .tc main_arg0) = m ((c : Thread nD τ).loc main_arg0) := by
  simp only [W5, W4, W3, W2, W1, hostOps0_4, hostOps0_3, hostOps0_2, hostOps0_1, hostOps0]
  after_results_simp
theorem entry_arg3 : W5 m ρ c (Proc.devRef .tc main_arg3) = m ((c : Thread nD τ).loc main_arg3) := by
  simp only [W5, W4, W3, W2, W1, hostOps0_4, hostOps0_3, hostOps0_2, hostOps0_1, hostOps0]
  after_results_simp
theorem entry_arg4 : W5 m ρ c (Proc.devRef .tc main_arg4) = m ((c : Thread nD τ).loc main_arg4) := by
  simp only [W5, W4, W3, W2, W1, hostOps0_4, hostOps0_3, hostOps0_2, hostOps0_1, hostOps0]
  after_results_simp
theorem entry_arg5 : W5 m ρ c (Proc.devRef .tc main_arg5) = m ((c : Thread nD τ).loc main_arg5) := by
  simp only [W5, W4, W3, W2, W1, hostOps0_4, hostOps0_3, hostOps0_2, hostOps0_1, hostOps0]
  after_results_simp
theorem entry_arg6 : W5 m ρ c (Proc.devRef .tc main_arg6) = m ((c : Thread nD τ).loc main_arg6) := by
  simp only [W5, W4, W3, W2, W1, hostOps0_4, hostOps0_3, hostOps0_2, hostOps0_1, hostOps0]
  after_results_simp

/-! ## Across the regions: each boundary's contents at the buffers later steps read -/

/-- The first projection leaves `x · W1`. -/
theorem exit0_xw : W6 m ρ c (Proc.devRef .tc main_v35) = Cert.Gcn.mmS (m ((c : Thread nD τ).loc main_arg0)) (m ((c : Thread nD τ).loc main_arg3)) := by
  refine (W6_arr m ρ c 2).trans ((product0 (V5 m ρ) c).trans ?_)
  show Cert.Gcn.mmS (W5 m ρ c (Proc.devRef .tc main_arg0)) (W5 m ρ c (Proc.devRef .tc main_arg3)) = _
  rw [entry_arg0, entry_arg3]
theorem exit0_norm : W6 m ρ c (Proc.devRef .tc main_v34) = Cert.Gcn.normIn (m ((c : Thread nD τ).loc main_arg1)) (m ((c : Thread nD τ).loc main_arg2)) :=
  (W6_of_ne m ρ c main_v34 (by decide)).trans (entry_norm m ρ c)
theorem exit0_src : W6 m ρ c (Proc.devRef .tc main_v3) = Cert.Gcn.srcOf (m ((c : Thread nD τ).loc main_arg1)) :=
  (W6_of_ne m ρ c main_v3 (by decide)).trans (entry_src m ρ c)
theorem exit0_dst : W6 m ρ c (Proc.devRef .tc main_v6) = Cert.Gcn.dstOf (m ((c : Thread nD τ).loc main_arg1)) :=
  (W6_of_ne m ρ c main_v6 (by decide)).trans (entry_dst m ρ c)
theorem exit0_arg4 : W6 m ρ c (Proc.devRef .tc main_arg4) = (m ((c : Thread nD τ).loc main_arg4)) :=
  (W6_of_ne m ρ c main_arg4 (by decide)).trans (entry_arg4 m ρ c)
theorem exit0_arg5 : W6 m ρ c (Proc.devRef .tc main_arg5) = (m ((c : Thread nD τ).loc main_arg5)) :=
  (W6_of_ne m ρ c main_arg5 (by decide)).trans (entry_arg5 m ρ c)
theorem exit0_arg6 : W6 m ρ c (Proc.devRef .tc main_arg6) = (m ((c : Thread nD τ).loc main_arg6)) :=
  (W6_of_ne m ρ c main_arg6 (by decide)).trans (entry_arg6 m ρ c)

/-- The host aggregates the first projection along the edges and reshapes the bias. -/
theorem entry1_agg : W7 m ρ c (Proc.devRef .tc main_v48)
    = Cert.Gcn.aggOf (Cert.Gcn.normIn (m ((c : Thread nD τ).loc main_arg1)) (m ((c : Thread nD τ).loc main_arg2))) (Cert.Gcn.srcOf (m ((c : Thread nD τ).loc main_arg1))) (Cert.Gcn.dstOf (m ((c : Thread nD τ).loc main_arg1))) (Cert.Gcn.mmS (m ((c : Thread nD τ).loc main_arg0)) (m ((c : Thread nD τ).loc main_arg3))) := by
  show StableHlo.after hostOps1 (W6 m ρ c) _ = _
  rw [stretch1_agg, exit0_norm, exit0_src, exit0_dst, exit0_xw]
theorem entry1_bias : W7 m ρ c (Proc.devRef .tc main_v49) = shapeCast S1x128 (m ((c : Thread nD τ).loc main_arg4)) shapeCasts_S128_S1x128 := by
  show StableHlo.after hostOps1 (W6 m ρ c) _ = _
  rw [stretch1_bias, exit0_arg4]
theorem entry1_norm : W7 m ρ c (Proc.devRef .tc main_v34) = Cert.Gcn.normIn (m ((c : Thread nD τ).loc main_arg1)) (m ((c : Thread nD τ).loc main_arg2)) :=
  (stretch1_v34 (W6 m ρ c)).trans (exit0_norm m ρ c)
theorem entry1_src : W7 m ρ c (Proc.devRef .tc main_v3) = Cert.Gcn.srcOf (m ((c : Thread nD τ).loc main_arg1)) :=
  (stretch1_v3 (W6 m ρ c)).trans (exit0_src m ρ c)
theorem entry1_dst : W7 m ρ c (Proc.devRef .tc main_v6) = Cert.Gcn.dstOf (m ((c : Thread nD τ).loc main_arg1)) :=
  (stretch1_v6 (W6 m ρ c)).trans (exit0_dst m ρ c)
theorem entry1_arg5 : W7 m ρ c (Proc.devRef .tc main_arg5) = (m ((c : Thread nD τ).loc main_arg5)) :=
  (stretch1_arg5 (W6 m ρ c)).trans (exit0_arg5 m ρ c)
theorem entry1_arg6 : W7 m ρ c (Proc.devRef .tc main_arg6) = (m ((c : Thread nD τ).loc main_arg6)) :=
  (stretch1_arg6 (W6 m ρ c)).trans (exit0_arg6 m ρ c)

/-- The first bias kernel leaves the first layer's activation. -/
theorem exit1_h : W8 m ρ c (Proc.devRef .tc main_v50) = Cert.Gcn.reluS (Cert.Gcn.layer (m ((c : Thread nD τ).loc main_arg1)) (m ((c : Thread nD τ).loc main_arg2)) (m ((c : Thread nD τ).loc main_arg0)) (m ((c : Thread nD τ).loc main_arg3)) (m ((c : Thread nD τ).loc main_arg4))) := by
  refine (W8_arr m ρ c 2).trans ((activated1 (V7 m ρ) c).trans ?_)
  show Cert.Gcn.reluS (Cert.Gcn.biasRow (W7 m ρ c (Proc.devRef .tc main_v48)) (W7 m ρ c (Proc.devRef .tc main_v49))) = _
  rw [entry1_agg, entry1_bias]
  exact congrArg Cert.Gcn.reluS (Cert.Gcn.biasRow_reshape _ _ _)
theorem exit1_norm : W8 m ρ c (Proc.devRef .tc main_v34) = Cert.Gcn.normIn (m ((c : Thread nD τ).loc main_arg1)) (m ((c : Thread nD τ).loc main_arg2)) :=
  (W8_of_ne m ρ c main_v34 (by decide)).trans (entry1_norm m ρ c)
theorem exit1_src : W8 m ρ c (Proc.devRef .tc main_v3) = Cert.Gcn.srcOf (m ((c : Thread nD τ).loc main_arg1)) :=
  (W8_of_ne m ρ c main_v3 (by decide)).trans (entry1_src m ρ c)
theorem exit1_dst : W8 m ρ c (Proc.devRef .tc main_v6) = Cert.Gcn.dstOf (m ((c : Thread nD τ).loc main_arg1)) :=
  (W8_of_ne m ρ c main_v6 (by decide)).trans (entry1_dst m ρ c)
theorem exit1_arg5 : W8 m ρ c (Proc.devRef .tc main_arg5) = (m ((c : Thread nD τ).loc main_arg5)) :=
  (W8_of_ne m ρ c main_arg5 (by decide)).trans (entry1_arg5 m ρ c)
theorem exit1_arg6 : W8 m ρ c (Proc.devRef .tc main_arg6) = (m ((c : Thread nD τ).loc main_arg6)) :=
  (W8_of_ne m ρ c main_arg6 (by decide)).trans (entry1_arg6 m ρ c)

/-- The second projection leaves `h · W2`. -/
theorem exit2_xw : W9 m ρ c (Proc.devRef .tc main_v51) = Cert.Gcn.mmS (Cert.Gcn.reluS (Cert.Gcn.layer (m ((c : Thread nD τ).loc main_arg1)) (m ((c : Thread nD τ).loc main_arg2)) (m ((c : Thread nD τ).loc main_arg0)) (m ((c : Thread nD τ).loc main_arg3)) (m ((c : Thread nD τ).loc main_arg4)))) (m ((c : Thread nD τ).loc main_arg5)) := by
  refine (W9_arr m ρ c 2).trans ((product2 (V8 m ρ) c).trans ?_)
  show Cert.Gcn.mmS (W8 m ρ c (Proc.devRef .tc main_v50)) (W8 m ρ c (Proc.devRef .tc main_arg5)) = _
  rw [exit1_h, exit1_arg5]
theorem exit2_norm : W9 m ρ c (Proc.devRef .tc main_v34) = Cert.Gcn.normIn (m ((c : Thread nD τ).loc main_arg1)) (m ((c : Thread nD τ).loc main_arg2)) :=
  (W9_of_ne m ρ c main_v34 (by decide)).trans (exit1_norm m ρ c)
theorem exit2_src : W9 m ρ c (Proc.devRef .tc main_v3) = Cert.Gcn.srcOf (m ((c : Thread nD τ).loc main_arg1)) :=
  (W9_of_ne m ρ c main_v3 (by decide)).trans (exit1_src m ρ c)
theorem exit2_dst : W9 m ρ c (Proc.devRef .tc main_v6) = Cert.Gcn.dstOf (m ((c : Thread nD τ).loc main_arg1)) :=
  (W9_of_ne m ρ c main_v6 (by decide)).trans (exit1_dst m ρ c)
theorem exit2_arg6 : W9 m ρ c (Proc.devRef .tc main_arg6) = (m ((c : Thread nD τ).loc main_arg6)) :=
  (W9_of_ne m ρ c main_arg6 (by decide)).trans (exit1_arg6 m ρ c)

/-- The host aggregates the second projection and reshapes the second bias. -/
theorem entry3_agg : W10 m ρ c (Proc.devRef .tc main_v64)
    = Cert.Gcn.aggOf (Cert.Gcn.normIn (m ((c : Thread nD τ).loc main_arg1)) (m ((c : Thread nD τ).loc main_arg2))) (Cert.Gcn.srcOf (m ((c : Thread nD τ).loc main_arg1))) (Cert.Gcn.dstOf (m ((c : Thread nD τ).loc main_arg1))) (Cert.Gcn.mmS (Cert.Gcn.reluS (Cert.Gcn.layer (m ((c : Thread nD τ).loc main_arg1)) (m ((c : Thread nD τ).loc main_arg2)) (m ((c : Thread nD τ).loc main_arg0)) (m ((c : Thread nD τ).loc main_arg3)) (m ((c : Thread nD τ).loc main_arg4)))) (m ((c : Thread nD τ).loc main_arg5))) := by
  show StableHlo.after hostOps3 (W9 m ρ c) _ = _
  rw [stretch3_agg, exit2_norm, exit2_src, exit2_dst, exit2_xw]
theorem entry3_bias : W10 m ρ c (Proc.devRef .tc main_v65) = shapeCast S1x128 (m ((c : Thread nD τ).loc main_arg6)) shapeCasts_S128_S1x128 := by
  show StableHlo.after hostOps3 (W9 m ρ c) _ = _
  rw [stretch3_bias, exit2_arg6]

/-- THE RESULT: the last boundary's contents at the result buffer are the network of the seven arguments. -/
theorem result : W11 m ρ c (Proc.devRef .tc main_v66) = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 2).trans ((biased3 (V10 m ρ) c).trans ?_)
  show Cert.Gcn.biasRow (W10 m ρ c (Proc.devRef .tc main_v64)) (W10 m ρ c (Proc.devRef .tc main_v65)) = _
  rw [entry3_agg, entry3_bias]
  exact Cert.Gcn.biasRow_reshape _ _ _

end Cert.KernelIdeal.Whole

end
-- ==== Proof.RefValue.lean ====
/-
  The idealized reference's result as the same function of the arguments. The reference is one line of host operations: it
  builds the edge lists, computes the degrees and the edge coefficients (once per layer, from the same operands both times),
  takes the whole matrix product, aggregates along the edges, adds the bias broadcast over the rows, and for the first layer
  takes the maximum with a zero array. Stage by stage this is `Cert.Gcn.gcn`: the host chains are the same operations on the
  same operands; the matrix product at an index is the sum over the 128 shared coordinates; the doubly broadcast bias at
  `(r, q)` is `b q`; the zero array at an index is `0`.
-/
import proofs.«171158_j53532472377745_1_alg».proof.Proof.Gen.ReferenceIdeal.Run
import proofs.«171158_j53532472377745_1_alg».proof.Proof.Gen.ReferenceIdeal.Read
import proofs.«171158_j53532472377745_1_alg».proof.Proof.Spec

set_option maxRecDepth 16384

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read Cert.Gcn

variable (x : FArr S100000x128) (ei : IArr S2x1600000) (ew : FArr S1600000) (W1 : FArr S128x128) (b1 : FArr S128)
  (W2 : FArr S128x128) (b2 : FArr S128)

/-! ## The host chains the two programs share -/

theorem src_eq : val_main_v3 (F := Ideal) ei = srcOf ei := rfl
theorem dst_eq : val_main_v6 (F := Ideal) ei = dstOf ei := rfl
/-- The first layer's edge coefficients. -/
theorem norm1_eq : val_main_v35 (F := Ideal) ei ew = normIn ei ew := rfl
/-- The second layer computes them again from the same operands. -/
theorem norm2_eq : val_main_v79 (F := Ideal) ei ew = normIn ei ew := rfl

/-! ## The dense pieces at an index -/

/-- The whole matrix product is the sum over the shared coordinate. -/
theorem dot_eq (h : FArr S100000x128) (W : FArr S128x128) :
    Host.dotGeneral (F := Ideal) dot_S100000x128_S128x128_S100000x128_1_0_0_1_n_n none h W = mmS h W := by
  funext i
  refine (val_main_v9_apply h W i).trans ?_
  unfold mmS
  refine Finset.sum_congr rfl fun k _ => ?_
  have el : lidx_main_v9 i k = ix2 (⟨(i 0).val, (i 0).isLt⟩ : Fin 100000) k :=
    funext fun a => Fin.ext (by match a with | ⟨0, _⟩ => rfl | ⟨1, _⟩ => rfl)
  have er : ridx_main_v9 i k = ix2 k (⟨(i 1).val, (i 1).isLt⟩ : Fin 128) :=
    funext fun a => Fin.ext (by match a with | ⟨0, _⟩ => rfl | ⟨1, _⟩ => rfl)
  rw [el, er]

/-- A bias broadcast to one row and then over all rows, added: `b q` in column `q`. -/
theorem bias_eq (a : FArr S100000x128) (b : FArr S128) :
    addf a (broadcastInDim S100000x128 ![0, 1] bcast_S1x128_S100000x128_0_1 (broadcastInDim S1x128 ![1] bcast_S128_S1x128_1 b)) = biasS a b := by
  funext i
  show a i + val_main_v50 (F := Ideal) b i = _
  rw [val_main_v50_apply, val_main_v49_apply]
  have ei : idx_main_v49 (idx_main_v50 i) = ix1 (⟨(i 1).val, (i 1).isLt⟩ : Fin 128) :=
    funext fun a => Fin.ext (by match a with | ⟨0, _⟩ => rfl)
  rw [ei]
  rfl

/-- The maximum with the zero array is the maximum with `0`. -/
theorem relu_eq (a : FArr S100000x128) : maximumf a (val_main_call2_v0 (F := Ideal)) = reluS a := by
  funext i
  rfl

/-! ## The layers and the result -/

/-- The first layer's aggregation is the shared chain applied to the whole product. -/
theorem agg1_eq : val_main_v48 (F := Ideal) x ei ew W1
    = aggOf (normIn ei ew) (srcOf ei) (dstOf ei) (val_main_v9 (F := Ideal) x W1) := by
  unfold val_main_v48 val_main_v47 val_main_v46 val_main_cst_10 val_main_v45 val_main_v44 val_main_v36 val_main_v43
    val_main_v42 val_main_v41 val_main_v38 val_main_v40 val_main_v37 val_main_v39 val_main_c_8 val_main_c_9 aggOf wrap
  rw [norm1_eq, src_eq, dst_eq]

theorem layer1_eq : val_main_v51 (F := Ideal) x ei ew W1 b1 = layer ei ew x W1 b1 := by
  unfold val_main_v51 val_main_v50 val_main_v49 layer
  rw [agg1_eq]
  unfold val_main_v9
  rw [dot_eq, bias_eq]

theorem hidden_eq : val_main_v52 (F := Ideal) x ei ew W1 b1 = reluS (layer ei ew x W1 b1) := by
  unfold val_main_v52
  rw [layer1_eq, relu_eq]

/-- The second layer's aggregation is the same chain applied to the second product. -/
theorem agg2_eq : val_main_v92 (F := Ideal) x ei ew W1 b1 W2
    = aggOf (normIn ei ew) (srcOf ei) (dstOf ei) (val_main_v53 (F := Ideal) x ei ew W1 b1 W2) := by
  unfold val_main_v92 val_main_v91 val_main_v90 val_main_cst_22 val_main_v89 val_main_v88 val_main_v80 val_main_v87
    val_main_v86 val_main_v85 val_main_v82 val_main_v84 val_main_v81 val_main_v83 val_main_c_20 val_main_c_21 aggOf wrap
  rw [norm2_eq, src_eq, dst_eq]

theorem result_eq : val_main_v95 (F := Ideal) x ei ew W1 b1 W2 b2 = gcn x ei ew W1 b1 W2 b2 := by
  unfold val_main_v95 val_main_v94 val_main_v93 gcn
  rw [agg2_eq]
  unfold val_main_v53
  rw [hidden_eq, dot_eq, bias_eq]
  rfl

/-- The reference run's result term is the network of the arguments. -/
theorem run_eq (m : (ℓ : Loc nD τ sig) → Buf (Elt Ideal) ℓ) (c : Dev nD) :
    Cert.ReferenceIdeal.Value.res_main_v95 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (val_main_v95_eq m c).trans (result_eq _ _ _ _ _ _ _)

end Cert.ReferenceIdeal.RefValue

end
-- ==== Proof.lean ====
/-
  A two-layer graph convolution on 100 000 nodes with 128 features: each layer maps `h` to
  `agg (h · W) + b`, where `agg` sends along every edge (1 600 000 given ones and one self loop per node) the source's row scaled
  by `dinv (src) · w · dinv (dst)` and adds up what arrives at a node; `max · 0` sits between the layers. The kernel computes the
  two dense pieces of each layer — the matrix product and the bias (with the maximum) — in blocks of 5000 rows and leaves
  the gathers and scatter-additions to the host; the reference is the host's own operations throughout. Over the extended reals
  the blocks of a product are the rows of the whole product, the rounding of the product's operands to bf16 is the
  identity, and a sum's order does not matter, so both programs end at the same function of the seven arguments
  (`Cert.Gcn.gcn`). No law of arithmetic beyond the definition of the matrix product as a finite sum is used; the inputs'
  finiteness is not needed.
-/
import proofs.«171158_j53532472377745_1_alg».proof.Defs
import proofs.«171158_j53532472377745_1_alg».proof.Proof.Gen.Kernel
import proofs.«171158_j53532472377745_1_alg».proof.Proof.Gen.Kernel.Skeleton
import proofs.«171158_j53532472377745_1_alg».proof.Proof.Gen.Kernel.Launch
import proofs.«171158_j53532472377745_1_alg».proof.Proof.Gen.Kernel.Points
import proofs.«171158_j53532472377745_1_alg».proof.Proof.Gen.Kernel.Frame
import proofs.«171158_j53532472377745_1_alg».proof.Proof.Gen.KernelIdeal
import proofs.«171158_j53532472377745_1_alg».proof.Proof.Gen.KernelIdeal.Skeleton
import proofs.«171158_j53532472377745_1_alg».proof.Proof.Gen.KernelIdeal.Launch
import proofs.«171158_j53532472377745_1_alg».proof.Proof.Gen.KernelIdeal.Points
import proofs.«171158_j53532472377745_1_alg».proof.Proof.Gen.KernelIdeal.Frame
import proofs.«171158_j53532472377745_1_alg».proof.Proof.Gen.ReferenceIdeal
import proofs.«171158_j53532472377745_1_alg».proof.Proof.Gen.ReferenceIdeal.Run
import proofs.«171158_j53532472377745_1_alg».proof.Proof.Gen.Pre_finite_inputs
import proofs.«171158_j53532472377745_1_alg».proof.Proof.KernelRun
import proofs.«171158_j53532472377745_1_alg».proof.Proof.KernelValue
import proofs.«171158_j53532472377745_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the network of the arguments in their result arrays. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.run_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
